-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S50001x128 : Shape := ⟨2, ![50001, 128]⟩
abbrev S128x128 : Shape := ⟨2, ![128, 128]⟩
abbrev S64x128 : Shape := ⟨2, ![64, 128]⟩
abbrev S_ : Shape := ⟨0, ![]⟩

class Facts : Prop where
  bcast_S_S50001x128 : S_.BroadcastsInDim S50001x128 (![] : Fin 0 → Fin S50001x128.rank)
  reducesTo_S50001x128_S_d0_1 : S50001x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg6 : FVec F S128x128 .f32) (main_arg7 : FVec F S128x128 .f32) (main_arg8 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : IVec S50000x2 32) (main_arg1 : IVec S2x800000 32) (main_arg2 : FVec F S50001x128 .f32) (main_arg3 : FVec F S50001x128 .f32) (main_arg4 : FVec F S128x128 .f32) (main_arg5 : FVec F S128x128 .f32) (main_arg6 : FVec F S128x128 .f32) (main_arg7 : FVec F S128x128 .f32) (main_arg8 : FVec F S64x128 .f32) : IVec S_ 1 :=
  let main_v0 : FVec F S50001x128 .f32 := Host.absf main_arg2
  let main_cst : FVec F S_ .f32 := constant S_ .f32 0x7F800000#32
  let main_v1 : FVec F S50001x128 .f32 := broadcastInDim S50001x128 ![] bcast_S_S50001x128 main_cst
  let main_v2 : IVec S50001x128 1 := cmpf .olt main_v0 main_v1
  let main_c : IVec S_ 1 := constantI S_ 1 1#1
  let main_v3 : IVec S_ 1 := (fun x v => Host.reduce IntOp.andi x v reducesTo_S50001x128_S_d0_1 h_S_) main_v2 main_c
  let main_v4 : FVec F S50001x128 .f32 := Host.absf main_arg3
  let main_cst_0 : FVec F S_ .f32 := constant S_ .f32 0x7F800000#32
  let main_v5 : FVec F S50001x128 .f32 := broadcastInDim S50001x128 ![] bcast_S_S50001x128 main_cst_0
  let main_v6 : IVec S50001x128 1 := cmpf .olt main_v4 main_v5
  let main_c_1 : IVec S_ 1 := constantI S_ 1 1#1
  let main_v7 : IVec S_ 1 := (fun x v => Host.reduce IntOp.andi x v reducesTo_S50001x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x2 : Shape := ⟨2, ![50000, 2]⟩
abbrev S2x800000 : Shape := ⟨2, ![2, 800000]⟩
abbrev S50001x128 : Shape := ⟨2, ![50001, 128]⟩
abbrev S128x128 : Shape := ⟨2, ![128, 128]⟩
abbrev S64x128 : Shape := ⟨2, ![64, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S2000x128 : Shape := ⟨2, ![2000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x64 : Shape := ⟨2, ![50000, 64]⟩
abbrev S2000x64 : Shape := ⟨2, ![2000, 64]⟩
abbrev S128x64 : Shape := ⟨2, ![128, 64]⟩

abbrev nBuf : Space → Nat
  | .hbm => 83
  | .vmem => 27
  | .smem => 0
  | _ => 0

abbrev bufTy : (tb : Table) → Fin (tcTables nBuf tb) → BufTy
  | .hbm, ⟨0, _⟩ => ⟨S50000x2, .i32⟩
  | .hbm, ⟨1, _⟩ => ⟨S2x800000, .i32⟩
  | .hbm, ⟨2, _⟩ => ⟨S50001x128, .f32⟩
  | .hbm, ⟨3, _⟩ => ⟨S50001x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S64x128, .f32⟩
  | .hbm, ⟨9, _⟩ => ⟨S50000x1, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S50000x1, .i32⟩
  | .hbm, ⟨21, _⟩ => ⟨S50000, .i32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x128, .f32⟩
  | .hbm, ⟨31, _⟩ => ⟨S50000x128, .f32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S_, .f32⟩
  | .hbm, ⟨37, _⟩ => ⟨S800000, .f32⟩
  | .hbm, ⟨38, _⟩ => ⟨S_, .f32⟩
  | .hbm, ⟨39, _⟩ => ⟨S50000, .f32⟩
  | .hbm, ⟨40, _⟩ => ⟨S800000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S64x128, .f32⟩
  | .local _ .vmem, ⟨25, _⟩ => ⟨S2000x64, .f32⟩
  | .local _ .vmem, ⟨26, _⟩ => ⟨S2000x64, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S2000x64_S2000x64_0_0 : ∀ a, (![0, 0] : Fin 2 → Nat) a + S2000x64.size a ≤ S2000x64.size a
  h_S2000x64 : 0 < S2000x64.numel
  gather_S50001x128_S50000x1_S50000x128_1_0_n_n_0_1_1128_wf : GatherDims.WF S50001x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def gather_S50001x128_S50000x1_S50000x128_1_0_n_n_0_1_1128 : GatherDims S50001x128 S50000x1 S50000x128 where
  offsetDims := [1]
  collapsedSliceDims := [0]
  operandBatchingDims := []
  startIndicesBatchingDims := []
  startIndexMap := [0]
  indexVectorDim := 1
  sliceSizes := ![1, 128]
  wf := gather_S50001x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v8) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S50001x128 : Shape := ⟨2, ![50001, 128]⟩
abbrev S128x128 : Shape := ⟨2, ![128, 128]⟩
abbrev S64x128 : Shape := ⟨2, ![64, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S128x64 : Shape := ⟨2, ![128, 64]⟩
abbrev S50000x64 : Shape := ⟨2, ![50000, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x2, .i32⟩
  | .hbm, ⟨1, _⟩ => ⟨S2x800000, .i32⟩
  | .hbm, ⟨2, _⟩ => ⟨S50001x128, .f32⟩
  | .hbm, ⟨3, _⟩ => ⟨S50001x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S64x128, .f32⟩
  | .hbm, ⟨9, _⟩ => ⟨S50000x1, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S50000x1, .i32⟩
  | .hbm, ⟨21, _⟩ => ⟨S50000, .i32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S1x800000, .i32⟩
  | .hbm, ⟨36, _⟩ => ⟨S800000, .i32⟩
  | .hbm, ⟨37, _⟩ => ⟨S1x800000, .i32⟩
  | .hbm, ⟨38, _⟩ => ⟨S800000, .i32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S128x128, .f32⟩
  | .hbm, ⟨95, _⟩ => ⟨S50000x128, .f32⟩
  | .hbm, ⟨96, _⟩ => ⟨S128x128, .f32⟩
  | .hbm, ⟨97, _⟩ => ⟨S50000x128, .f32⟩
  | .hbm, ⟨98, _⟩ => ⟨S50000x128, .f32⟩
  | .hbm, ⟨99, _⟩ => ⟨S128x64, .f32⟩
  | .hbm, ⟨100, _⟩ => ⟨S50000x64, .f32⟩
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  transposes_S128x128_S128x128_1_0 : S128x128.Transposes [1, 0] S128x128
  transposes_S64x128_S128x64_1_0 : S64x128.Transposes [1, 0] S128x64
  gather_S50001x128_S50000x1_S50000x128_1_0_n_n_0_1_1128_wf : GatherDims.WF S50001x128 S50000x1 S50000x128 [1] [0] [] [0] [] 1 ![1, 128]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50001x128_S50000x1_S50000x128_1_0_n_n_0_1_1128 : GatherDims S50001x128 S50000x1 S50000x128 where
  offsetDims := [1]
  collapsedSliceDims := [0]
  operandBatchingDims := []
  startIndicesBatchingDims := []
  startIndexMap := [0]
  indexVectorDim := 1
  sliceSizes := ![1, 128]
  wf := gather_S50001x128_S50000x1_S50000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The functions both programs compute, index by index on the extended reals, over the literal shapes:
  node features are [50000, 128], weights [128, 128] (the classifier's [64, 128]), degrees [50000].

  * `embed a b`      : the rectified sum, max (a + b) 0, entry by entry.
  * `mean s deg`     : a segment sum divided by the clamped degree of its row, s / max (deg row) 1.
  * `sage h g ws wn` : one mean-aggregating layer without bias, h · wsᵀ + g · wnᵀ: entry (r, c) is
                        Σ_k h(r, k) · ws(c, k) + Σ_k g(r, k) · wn(c, k).
  * `cls h w`        : the classifier, h · wᵀ: entry (r, c) is Σ_k h(r, k) · w(c, k).

  The one law that is not a rearrangement: multiplying by the reciprocal 1 / d is dividing by d, for every
  extended real d other than 0 (the quotient is x · d⁻¹ off zero, and 1 · d⁻¹ = d⁻¹); a degree clamped from below
  by 1 is never 0, whatever the segment sum of ones is.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float word 0x3F800000 is the real number one. -/
theorem ofBits_one : Ideal.ofBits .f32 0x3F800000#32 = 1 := by
  simp [Ideal.ofBits, Ideal.ieee]
  rw [← EReal.coe_mul, ← EReal.coe_one]
  exact congrArg _ (by norm_num)

/-- A value clamped from below by one is not zero. -/
theorem max_one_ne_zero (d : EReal) : max d 1 ≠ 0 := by
  intro h0
  have h : (1 : EReal) ≤ max d 1 := le_max_right _ _
  rw [h0] at h
  exact absurd h (by exact_mod_cast (not_le.mpr (zero_lt_one : (0 : ℝ) < 1)))

/-- Multiplying by the reciprocal of a nonzero extended real is dividing by it, at the infinities too. -/
theorem mul_recip (x d : EReal) (hd : d ≠ 0) : x * Ideal.div 1 d = Ideal.div x d := by
  unfold Ideal.div
  rw [if_neg hd, if_neg hd, one_mul]

/-- The rectified sum of two feature arrays. -/
def embed (a b : (⟨2, ![50000, 128]⟩ : Shape).Idx → EReal) : (⟨2, ![50000, 128]⟩ : Shape).Idx → EReal :=
  fun i => max (a i + b i) 0

/-- A row-wise quotient by the degree clamped from below by one. -/
def mean (s : (⟨2, ![50000, 128]⟩ : Shape).Idx → EReal) (deg : (⟨1, ![50000]⟩ : Shape).Idx → EReal) :
    (⟨2, ![50000, 128]⟩ : Shape).Idx → EReal :=
  fun i => Ideal.div (s i) (max (deg (ix1 (i 0))) 1)

/-- One layer: the features times the self weights' transpose plus the aggregate times the neighbour weights' transpose. -/
def sage (h g : (⟨2, ![50000, 128]⟩ : Shape).Idx → EReal) (ws wn : (⟨2, ![128, 128]⟩ : Shape).Idx → EReal) :
    (⟨2, ![50000, 128]⟩ : Shape).Idx → EReal :=
  fun i => (∑ k : Fin 128, h (ix2 (i 0) k) * ws (ix2 (i 1) k)) + (∑ k : Fin 128, g (ix2 (i 0) k) * wn (ix2 (i 1) k))

/-- The classifier: the features times the class weights' transpose. -/
def cls (h : (⟨2, ![50000, 128]⟩ : Shape).Idx → EReal) (w : (⟨2, ![64, 128]⟩ : Shape).Idx → EReal) :
    (⟨2, ![50000, 64]⟩ : Shape).Idx → EReal :=
  fun i => ∑ k : Fin 128, h (ix2 (i 0) k) * w (ix2 (i 1) k)

end Cert.Spec

end
-- ==== Proof.RefValue.lean ====
/-
  The reference program, stage by stage: its rectified embedding sum, its two layers (a quotient of the
  segment sum by the clamped degree, then two matrix products with transposed weights, added) and its classifier
  product are the specification's functions of the stages before them, entry by entry. The gathers and the
  scatter-adds stay as the program spells them.
-/
import proofs.«145186_j30434138259919_1_alg».proof.Proof.Gen.ReferenceIdeal.Run
import proofs.«145186_j30434138259919_1_alg».proof.Proof.Gen.ReferenceIdeal.Read
import proofs.«145186_j30434138259919_1_alg».proof.Proof.Spec

noncomputable section

namespace Cert.ReferenceIdeal.Stages

open Cert.ReferenceIdeal Cert.ReferenceIdeal.Read Idealize.ShloMosaic Idealize.ShloMosaic.ValueIdx

variable (x0 : (⟨S50000x2, .i32⟩ : BufTy).Contents (Elt Ideal)) (x1 : (⟨S2x800000, .i32⟩ : BufTy).Contents (Elt Ideal))
  (x2 x3 : (⟨S50001x128, .f32⟩ : BufTy).Contents (Elt Ideal)) (x4 x5 x6 x7 : (⟨S128x128, .f32⟩ : BufTy).Contents (Elt Ideal))
  (x8 : (⟨S64x128, .f32⟩ : BufTy).Contents (Elt Ideal))

/-- The segment sum of the rows an edge list gathers from a feature array: gather by source, scatter-add by target. -/
def segSum (h : (⟨S50000x128, .f32⟩ : BufTy).Contents (Elt Ideal)) : (⟨S50000x128, .f32⟩ : BufTy).Contents (Elt Ideal) :=
  Host.scatterAdd (F := Ideal) (φ := .f32) scatter_S50000x128_S800000x1_S800000x128_1_0_0_1 (val_main_v35 (F := Ideal)) (val_main_v36 (F := Ideal) x1)
    (Host.gather (α := Ideal .f32) gather_S50000x128_S800000x1_S800000x128_1_0_n_n_0_1_1128 h (val_main_v33 (F := Ideal) x1))

/-- The first layer's segment sum is that function of the embedding stage. -/
theorem seg_stage1 : val_main_v37 (F := Ideal) x0 x1 x2 x3 = segSum x1 (val_main_v19 (F := Ideal) x0 x2 x3) := rfl

/-- The second layer's segment sum is the same function of the first layer's output. -/
theorem seg_stage2 : val_main_v61 (F := Ideal) x0 x1 x2 x3 x4 x5 = segSum x1 (val_main_v47 (F := Ideal) x0 x1 x2 x3 x4 x5) := rfl

/-- The degrees are computed twice, by the same operations. -/
theorem deg_stage2 : val_main_v51 (F := Ideal) x1 = val_main_v27 (F := Ideal) x1 := rfl

/-- The embedding stage: the rectified sum of the two gathered tables. -/
theorem embed_stage : val_main_v19 (F := Ideal) x0 x2 x3
    = Cert.Spec.embed (val_main_v8 (F := Ideal) x0 x2) (val_main_v17 (F := Ideal) x0 x3) := by
  funext i
  rw [val_main_v19_apply, val_main_v18_apply, val_main_call0_v0_apply, val_main_call0_cst_apply]
  show max (val_main_v8 (F := Ideal) x0 x2 i + val_main_v17 (F := Ideal) x0 x3 i) (Ideal.ofBits .f32 0x00000000#32) = _
  rw [Ideal.ofBits_zero_f32]
  rfl

/-- A feature row index's degree index, through the two broadcasts. -/
theorem deg_index (i : S50000x128.Idx) : idx_main_v40 (idx_main_v41 i) = ix1 (i 0) :=
  funext fun a => Fin.ext (by match a with | ⟨0, _⟩ => rfl)

theorem deg_index' (i : S50000x128.Idx) : idx_main_v64 (idx_main_v65 i) = ix1 (i 0) :=
  funext fun a => Fin.ext (by match a with | ⟨0, _⟩ => rfl)

/-- The first layer's aggregate: the segment sum over the clamped degree. -/
theorem mean_stage1 : val_main_v42 (F := Ideal) x0 x1 x2 x3
    = Cert.Spec.mean (val_main_v37 (F := Ideal) x0 x1 x2 x3) (val_main_v27 (F := Ideal) x1) := by
  funext i
  rw [val_main_v42_apply, val_main_v41_apply, val_main_v40_apply, val_main_v39_apply, val_main_v38_apply, val_main_cst_7_apply, deg_index]
  show Ideal.div (val_main_v37 (F := Ideal) x0 x1 x2 x3 i) (max (val_main_v27 (F := Ideal) x1 (ix1 (i 0))) (Ideal.ofBits .f32 0x3F800000#32)) = _
  rw [Cert.Spec.ofBits_one]
  rfl

/-- The second layer's aggregate. -/
theorem mean_stage2 : val_main_v66 (F := Ideal) x0 x1 x2 x3 x4 x5
    = Cert.Spec.mean (val_main_v61 (F := Ideal) x0 x1 x2 x3 x4 x5) (val_main_v51 (F := Ideal) x1) := by
  funext i
  rw [val_main_v66_apply, val_main_v65_apply, val_main_v64_apply, val_main_v63_apply, val_main_v62_apply, val_main_cst_13_apply, deg_index']
  show Ideal.div (val_main_v61 (F := Ideal) x0 x1 x2 x3 x4 x5 i) (max (val_main_v51 (F := Ideal) x1 (ix1 (i 0))) (Ideal.ofBits .f32 0x3F800000#32)) = _
  rw [Cert.Spec.ofBits_one]
  rfl

/-- Row r, contraction index k of the left operand; column c, contraction index k of the transposed weights. -/
theorem left_index (i : S50000x128.Idx) (k : Fin 128) : lidx_main_v44 i k = ix2 (i 0) k :=
  funext fun a => Fin.ext (by match a with | ⟨0, _⟩ => rfl | ⟨1, _⟩ => rfl)
theorem right_index (i : S50000x128.Idx) (k : Fin 128) : idx_main_v43 (ridx_main_v44 i k) = ix2 (i 1) k :=
  funext fun a => Fin.ext (by match a with | ⟨0, _⟩ => rfl | ⟨1, _⟩ => rfl)

/-- The first layer: both products as sums over the 128 hidden units, the weights read transposed. -/
theorem layer_stage1 : val_main_v47 (F := Ideal) x0 x1 x2 x3 x4 x5
    = Cert.Spec.sage (val_main_v19 (F := Ideal) x0 x2 x3) (val_main_v42 (F := Ideal) x0 x1 x2 x3) x4 x5 := by
  funext i
  rw [val_main_v47_apply, val_main_v44_apply, val_main_v46_apply]
  show (∑ k : Fin 128, val_main_v19 (F := Ideal) x0 x2 x3 (lidx_main_v44 i k) * val_main_v43 (F := Ideal) x4 (ridx_main_v44 i k))
      + (∑ k : Fin 128, val_main_v42 (F := Ideal) x0 x1 x2 x3 (lidx_main_v46 i k) * val_main_v45 (F := Ideal) x5 (ridx_main_v46 i k))
    = (∑ k : Fin 128, val_main_v19 (F := Ideal) x0 x2 x3 (ix2 (i 0) k) * x4 (ix2 (i 1) k))
      + (∑ k : Fin 128, val_main_v42 (F := Ideal) x0 x1 x2 x3 (ix2 (i 0) k) * x5 (ix2 (i 1) k))
  refine congrArg₂ (· + ·) (Finset.sum_congr rfl fun k _ => ?_) (Finset.sum_congr rfl fun k _ => ?_)
  · rw [val_main_v43_apply]
    exact congrArg₂ (· * ·) (congrArg _ (left_index i k)) (congrArg _ (right_index i k))
  · rw [val_main_v45_apply]
    exact congrArg₂ (· * ·) (congrArg _ (left_index i k)) (congrArg _ (right_index i k))

/-- The second layer. -/
theorem layer_stage2 : val_main_v71 (F := Ideal) x0 x1 x2 x3 x4 x5 x6 x7
    = Cert.Spec.sage (val_main_v47 (F := Ideal) x0 x1 x2 x3 x4 x5) (val_main_v66 (F := Ideal) x0 x1 x2 x3 x4 x5) x6 x7 := by
  funext i
  rw [val_main_v71_apply, val_main_v68_apply, val_main_v70_apply]
  show (∑ k : Fin 128, val_main_v47 (F := Ideal) x0 x1 x2 x3 x4 x5 (lidx_main_v68 i k) * val_main_v67 (F := Ideal) x6 (ridx_main_v68 i k))
      + (∑ k : Fin 128, val_main_v66 (F := Ideal) x0 x1 x2 x3 x4 x5 (lidx_main_v70 i k) * val_main_v69 (F := Ideal) x7 (ridx_main_v70 i k))
    = (∑ k : Fin 128, val_main_v47 (F := Ideal) x0 x1 x2 x3 x4 x5 (ix2 (i 0) k) * x6 (ix2 (i 1) k))
      + (∑ k : Fin 128, val_main_v66 (F := Ideal) x0 x1 x2 x3 x4 x5 (ix2 (i 0) k) * x7 (ix2 (i 1) k))
  refine congrArg₂ (· + ·) (Finset.sum_congr rfl fun k _ => ?_) (Finset.sum_congr rfl fun k _ => ?_)
  · rw [val_main_v67_apply]
    exact congrArg₂ (· * ·) (congrArg _ (left_index i k)) (congrArg _ (right_index i k))
  · rw [val_main_v69_apply]
    exact congrArg₂ (· * ·) (congrArg _ (left_index i k)) (congrArg _ (right_index i k))

/-- The classifier's operand indices. -/
theorem cls_left_index (i : S50000x64.Idx) (k : Fin 128) : lidx_main_v73 i k = ix2 (i 0) k :=
  funext fun a => Fin.ext (by match a with | ⟨0, _⟩ => rfl | ⟨1, _⟩ => rfl)
theorem cls_right_index (i : S50000x64.Idx) (k : Fin 128) : idx_main_v72 (ridx_main_v73 i k) = ix2 (i 1) k :=
  funext fun a => Fin.ext (by match a with | ⟨0, _⟩ => rfl | ⟨1, _⟩ => rfl)

/-- The classifier stage. -/
theorem cls_stage : val_main_v73 (F := Ideal) x0 x1 x2 x3 x4 x5 x6 x7 x8
    = Cert.Spec.cls (val_main_v71 (F := Ideal) x0 x1 x2 x3 x4 x5 x6 x7) x8 := by
  funext i
  rw [val_main_v73_apply]
  show (∑ k : Fin 128, val_main_v71 (F := Ideal) x0 x1 x2 x3 x4 x5 x6 x7 (lidx_main_v73 i k) * val_main_v72 (F := Ideal) x8 (ridx_main_v73 i k))
    = ∑ k : Fin 128, val_main_v71 (F := Ideal) x0 x1 x2 x3 x4 x5 x6 x7 (ix2 (i 0) k) * x8 (ix2 (i 1) k)
  refine Finset.sum_congr rfl fun k _ => ?_
  rw [val_main_v72_apply]
  exact congrArg₂ (· * ·) (congrArg _ (cls_left_index i k)) (congrArg _ (cls_right_index i k))

end Cert.ReferenceIdeal.Stages

end
-- ==== Proof.Region0.lean ====
/-
  The first launch (the embedding kernel) as ONE function of the arrays it finds: whatever the buffers hold when the
  region is entered, its output array ends at the rectified sum of its two input arrays, entry by entry.
  Grid point t stages rows [2000·t, 2000·t + 2000) of both inputs and of the output (all three windows have the
  same index map, block (t, 0) of size [2000, 128]), the body stores max (x + y) 0 over the whole block, and the 25
  blocks tile the 50000 rows.
-/
import proofs.«145186_j30434138259919_1_alg».proof.Proof.Gen.KernelIdeal.Frame
import proofs.«145186_j30434138259919_1_alg».proof.Proof.Spec
import Idealize.ShloMosaic.Lib.Pipeline.Value
import Idealize.ShloMosaic.Lib.ValueIdx
import Idealize.ShloMosaic.PureOps.Ideal.Laws

noncomputable section

namespace Cert.KernelIdeal.Embed

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two input arrays as the region finds them, at their literal type. -/
abbrev keyRows (c : Dev nD) : (⟨2, ![50000, 128]⟩ : Shape).Idx → EReal := V c main_v8
abbrev valRows (c : Dev nD) : (⟨2, ![50000, 128]⟩ : Shape).Idx → EReal := V c main_v17

theorem zero_offsets : (![0, 0] : Fin 2 → Nat) = fun _ => 0 := funext fun a => by fin_cases a <;> rfl

/-- The body's stored value, entry by entry: the rectified sum of the two loaded blocks. -/
theorem payload (x0 x1 : Vec Ideal S2000x128 .f32) : k0_pay1 (F := Ideal) x0 x1 = fun j => max (x0 j + x1 j) 0 := by
  funext j
  unfold k0_pay1
  simp only [shapeCast_self]
  show max (x0 j + x1 j) (Ideal.ofBits .f32 0x00000000#32) = _
  rw [Ideal.ofBits_zero_f32]

/-- Over the grid: all three windows sit on block (t, 0), and t runs over the 25 row blocks. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 24
    ∧ win0_2.index t (1 : Fin 2) = 0 :=
  (by decide +kernel : ∀ t : Fin grid0.N, _)

/-- Every row block is some point's. -/
theorem index_onto : ∀ q : Fin 25, ∃ t : Fin cfg0.N, win0_2.index t = ![q.val, 0] :=
  (by decide +kernel : ∀ q : Fin 25, ∃ t : Fin grid0.N, win0_2.index t = ![q.val, 0])

/-- What point t writes back is block t of the rectified sum of the two input arrays. -/
theorem flushed_eq (c : Dev nD) (t : Fin cfg0.N) :
    (dat0 (F := Ideal) V c).flushed 2 t
      = ((cfg0.win 2).blk t).view.read (Elt Ideal) (Cert.Spec.embed (keyRows V c) (valRows V c)) := by
  show (cfg0.win 2).cut (grid0.coords t) ((dat0 V c).after 2 t) = _
  rw [after0_2]
  unfold out0_2
  rw [View.canon_unit_zero zero_offsets]
  simp only [View.ld_unit_zero (S := S2000x128) zero_offsets]
  rw [payload]
  obtain ⟨e0, e1, e2, e3, e4, e5⟩ := index_facts t
  funext j
  show max (keyRows V c (((cfg0.win 0).blk t).view.emb j) + valRows V c (((cfg0.win 1).blk t).view.emb j)) 0
    = max (keyRows V c (((cfg0.win 2).blk t).view.emb j) + valRows V c (((cfg0.win 2).blk t).view.emb j)) 0
  have h0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 128 + 1 * (j 1).val = win0_2.index t (1 : Fin 2) * 128 + 1 * (j 1).val; omega
  rw [h0, h1]

/-- An index is in point t's block iff each coordinate is in the block's range. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v18).slice (win0_2.rect t)).set ↔ _
  rw [View.set_slice_whole, Rect.mem_set_unit]
  exact Iff.rfl

/-- The row blocks cover the array: row r is in block r / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region. -/
theorem array_eq (c : Dev nD) :
    (dat0 (F := Ideal) V c).arrAt 2 cfg0.N = Cert.Spec.embed (keyRows V c) (valRows V c) :=
  (dat0 V c).arrAt_eq_of_cover 2 _ (fun t _ => flushed_eq V c t) covered

end Cert.KernelIdeal.Embed

end
-- ==== Proof.Region1.lean ====
/-
  The second launch (the first layer's combine kernel) as ONE function of the arrays it finds: whatever the buffers
  hold when the region is entered, its output array ends at the features times the transpose of the self weights plus
  the aggregate times the transpose of the neighbour weights, entry (r, c) being
  Σ_k features(r, k) · wSelf(c, k) + Σ_k aggregate(r, k) · wNeigh(c, k).
  Grid point t stages rows [2000·t, 2000·t + 2000) of the features, of the aggregate and of the output (block (t, 0)
  of size [2000, 128]) and the whole of both [128, 128] weight arrays (block (0, 0)); the body stores the sum of the
  two products over the whole block, each product contracting the block's columns against the columns of a weight
  array (the transposed weights' rows), and the 25 blocks tile the 50000 rows.
-/
import proofs.«145186_j30434138259919_1_alg».proof.Proof.Gen.KernelIdeal.Frame
import proofs.«145186_j30434138259919_1_alg».proof.Proof.Spec
import Idealize.ShloMosaic.Lib.Pipeline.Value
import Idealize.ShloMosaic.Lib.ValueIdx
import Idealize.ShloMosaic.PureOps.Ideal.Laws

noncomputable section

namespace Cert.KernelIdeal.Layer1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The arrays the region reads, as it finds them, at their literal types. -/
abbrev feats (c : Dev nD) : (⟨2, ![50000, 128]⟩ : Shape).Idx → EReal := V c main_v18
abbrev aggs (c : Dev nD) : (⟨2, ![50000, 128]⟩ : Shape).Idx → EReal := V c main_v43
abbrev wSelf (c : Dev nD) : (⟨2, ![128, 128]⟩ : Shape).Idx → EReal := V c main_arg4
abbrev wNeigh (c : Dev nD) : (⟨2, ![128, 128]⟩ : Shape).Idx → EReal := V c main_arg5

theorem zero_offsets : (![0, 0] : Fin 2 → Nat) = fun _ => 0 := funext fun a => by fin_cases a <;> rfl

/-- The product's left operand index at output index i and contraction index q: row i 0, -/
theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- column q; -/
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's: row q, -/
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- column i 1. -/
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One product of the body, entry by entry: a block times the transpose of a weight array, into the zero splat, is
    the sum over the 128 columns of the block's row times the weight array's row. -/
theorem product (x : Vec Ideal S2000x128 .f32) (w : Vec Ideal S128x128 .f32) (j : S2000x128.Idx) :
    matmul (F := Ideal) dot_S2000x128_S128x128_S2000x128_1_0_0_1_n_n none (truncf .bf16 x bitsLt_bf16_f32)
        (transpose S128x128 [1, 0] (truncf .bf16 w bitsLt_bf16_f32) transposes_S128x128_p1_0_S128x128)
        (constant (F := Ideal) S2000x128 .f32 0x00000000#32) j
      = ∑ k : Fin 128, x (ix2 (j 0) k) * w (ix2 (j 1) k) := by
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = ix2 (j 0) k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx j ((ValueIdx.contrEquiv1 dot_S2000x128_S128x128_S2000x128_1_0_0_1_n_n 128 rfl rfl).symm k) = ix2 k (j 1) := funext fun a => Fin.ext (by
    match a with
    | ⟨0, _⟩ => exact (rhs_dot_0 _ _).trans hk
    | ⟨1, _⟩ => exact rhs_dot_1 _ _)
  rw [el, er]
  refine congrArg (x (ix2 (j 0) k) * ·) ?_
  exact transpose_apply [1, 0] _ transposes_S128x128_p1_0_S128x128 (ix2 k (j 1)) (ix2 (j 1) k) (fun b => match b with
    | ⟨0, _⟩ => rfl
    | ⟨1, _⟩ => rfl)

/-- The body's stored value, entry by entry: the sum of the two products. -/
theorem payload (x0 x3 : Vec Ideal S2000x128 .f32) (x6 x8 : Vec Ideal S128x128 .f32) :
    k1_pay1 (F := Ideal) x0 x3 x6 x8 = fun j => (∑ k : Fin 128, x0 (ix2 (j 0) k) * x6 (ix2 (j 1) k)) + (∑ k : Fin 128, x3 (ix2 (j 0) k) * x8 (ix2 (j 1) k)) := by
  funext j
  unfold k1_pay1
  simp only [shapeCast_self]
  exact congrArg₂ (· + ·) (product x0 x6 j) (product x3 x8 j)

/-- Over the grid: the features', the aggregate's and the output's windows sit on block (t, 0), the weights' on block
    (0, 0), and t runs over the 25 row blocks. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) ≤ 24
    ∧ win1_4.index t (1 : Fin 2) = 0 :=
  (by decide +kernel : ∀ t : Fin grid1.N, _)

/-- Every row block is some point's. -/
theorem index_onto : ∀ q : Fin 25, ∃ t : Fin cfg1.N, win1_4.index t = ![q.val, 0] :=
  (by decide +kernel : ∀ q : Fin 25, ∃ t : Fin grid1.N, win1_4.index t = ![q.val, 0])

/-- What point t writes back is block t of the layer's function of the four arrays. -/
theorem flushed_eq (c : Dev nD) (t : Fin cfg1.N) :
    (dat1 (F := Ideal) V c).flushed 4 t
      = ((cfg1.win 4).blk t).view.read (Elt Ideal) (Cert.Spec.sage (feats V c) (aggs V c) (wSelf V c) (wNeigh V c)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S128x128) zero_offsets]
  rw [payload]
  obtain ⟨e00, e01, e10, e11, e20, e21, e30, e31, e40, e41⟩ := index_facts t
  funext j
  show (∑ k : Fin 128, feats V c (((cfg1.win 0).blk t).view.emb (ix2 (j 0) k)) * wSelf V c (((cfg1.win 2).blk t).view.emb (ix2 (j 1) k)))
      + (∑ k : Fin 128, aggs V c (((cfg1.win 1).blk t).view.emb (ix2 (j 0) k)) * wNeigh V c (((cfg1.win 3).blk t).view.emb (ix2 (j 1) k)))
    = (∑ k : Fin 128, feats V c (ix2 ((((cfg1.win 4).blk t).view.emb j) 0) k) * wSelf V c (ix2 ((((cfg1.win 4).blk t).view.emb j) 1) k))
      + (∑ k : Fin 128, aggs V c (ix2 ((((cfg1.win 4).blk t).view.emb j) 0) k) * wNeigh V c (ix2 ((((cfg1.win 4).blk t).view.emb j) 1) k))
  have h0 : ∀ k : Fin 128, ((cfg1.win 0).blk t).view.emb (ix2 (j 0) k) = ix2 ((((cfg1.win 4).blk t).view.emb j) 0) k := fun k => by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * k.val = k.val; omega
  have h1 : ∀ k : Fin 128, ((cfg1.win 1).blk t).view.emb (ix2 (j 0) k) = ix2 ((((cfg1.win 4).blk t).view.emb j) 0) k := fun k => by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * k.val = k.val; omega
  have h2 : ∀ k : Fin 128, ((cfg1.win 2).blk t).view.emb (ix2 (j 1) k) = ix2 ((((cfg1.win 4).blk t).view.emb j) 1) k := fun k => by
    funext a; apply Fin.ext
    match a with
    | ⟨0, _⟩ => show win1_2.index t (0 : Fin 2) * 128 + 1 * (j 1).val = win1_4.index t (1 : Fin 2) * 128 + 1 * (j 1).val; omega
    | ⟨1, _⟩ => show win1_2.index t (1 : Fin 2) * 128 + 1 * k.val = k.val; omega
  have h3 : ∀ k : Fin 128, ((cfg1.win 3).blk t).view.emb (ix2 (j 1) k) = ix2 ((((cfg1.win 4).blk t).view.emb j) 1) k := fun k => by
    funext a; apply Fin.ext
    match a with
    | ⟨0, _⟩ => show win1_3.index t (0 : Fin 2) * 128 + 1 * (j 1).val = win1_4.index t (1 : Fin 2) * 128 + 1 * (j 1).val; omega
    | ⟨1, _⟩ => show win1_3.index t (1 : Fin 2) * 128 + 1 * k.val = k.val; omega
  exact congrArg₂ (· + ·)
    (Finset.sum_congr rfl fun k _ => congrArg₂ (· * ·) (congrArg (feats V c) (h0 k)) (congrArg (wSelf V c) (h2 k)))
    (Finset.sum_congr rfl fun k _ => congrArg₂ (· * ·) (congrArg (aggs V c) (h1 k)) (congrArg (wNeigh V c) (h3 k)))

/-- An index is in point t's block iff each coordinate is in the block's range. -/
theorem mem_block (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v44).slice (win1_4.rect t)).set ↔ _
  rw [View.set_slice_whole, Rect.mem_set_unit]
  exact Iff.rfl

/-- The row blocks cover the array: row r is in block r / 2000. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := index_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The output array after the region. -/
theorem array_eq (c : Dev nD) :
    (dat1 (F := Ideal) V c).arrAt 4 cfg1.N = Cert.Spec.sage (feats V c) (aggs V c) (wSelf V c) (wNeigh V c) :=
  (dat1 V c).arrAt_eq_of_cover 4 _ (fun t _ => flushed_eq V c t) covered

end Cert.KernelIdeal.Layer1

end
-- ==== Proof.Region2.lean ====
/-
  The third launch (the second layer's combine kernel) as ONE function of the arrays it finds: whatever the buffers
  hold when the region is entered, its output array ends at the features times the transpose of the self weights plus
  the aggregate times the transpose of the neighbour weights, entry (r, c) being
  Σ_k features(r, k) · wSelf(c, k) + Σ_k aggregate(r, k) · wNeigh(c, k).
  Grid point t stages rows [2000·t, 2000·t + 2000) of the features, of the aggregate and of the output (block (t, 0)
  of size [2000, 128]) and the whole of both [128, 128] weight arrays (block (0, 0)); the body stores the sum of the
  two products over the whole block, each product contracting the block's columns against the columns of a weight
  array (the transposed weights' rows), and the 25 blocks tile the 50000 rows.
-/
import proofs.«145186_j30434138259919_1_alg».proof.Proof.Gen.KernelIdeal.Frame
import proofs.«145186_j30434138259919_1_alg».proof.Proof.Spec
import Idealize.ShloMosaic.Lib.Pipeline.Value
import Idealize.ShloMosaic.Lib.ValueIdx
import Idealize.ShloMosaic.PureOps.Ideal.Laws

noncomputable section

namespace Cert.KernelIdeal.Layer2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The arrays the region reads, as it finds them, at their literal types. -/
abbrev feats (c : Dev nD) : (⟨2, ![50000, 128]⟩ : Shape).Idx → EReal := V c main_v44
abbrev aggs (c : Dev nD) : (⟨2, ![50000, 128]⟩ : Shape).Idx → EReal := V c main_v57
abbrev wSelf (c : Dev nD) : (⟨2, ![128, 128]⟩ : Shape).Idx → EReal := V c main_arg6
abbrev wNeigh (c : Dev nD) : (⟨2, ![128, 128]⟩ : Shape).Idx → EReal := V c main_arg7

theorem zero_offsets : (![0, 0] : Fin 2 → Nat) = fun _ => 0 := funext fun a => by fin_cases a <;> rfl

/-- The product's left operand index at output index i and contraction index q: row i 0, -/
theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- column q; -/
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's: row q, -/
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- column i 1. -/
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One product of the body, entry by entry: a block times the transpose of a weight array, into the zero splat, is
    the sum over the 128 columns of the block's row times the weight array's row. -/
theorem product (x : Vec Ideal S2000x128 .f32) (w : Vec Ideal S128x128 .f32) (j : S2000x128.Idx) :
    matmul (F := Ideal) dot_S2000x128_S128x128_S2000x128_1_0_0_1_n_n none (truncf .bf16 x bitsLt_bf16_f32)
        (transpose S128x128 [1, 0] (truncf .bf16 w bitsLt_bf16_f32) transposes_S128x128_p1_0_S128x128)
        (constant (F := Ideal) S2000x128 .f32 0x00000000#32) j
      = ∑ k : Fin 128, x (ix2 (j 0) k) * w (ix2 (j 1) k) := by
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = ix2 (j 0) k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx j ((ValueIdx.contrEquiv1 dot_S2000x128_S128x128_S2000x128_1_0_0_1_n_n 128 rfl rfl).symm k) = ix2 k (j 1) := funext fun a => Fin.ext (by
    match a with
    | ⟨0, _⟩ => exact (rhs_dot_0 _ _).trans hk
    | ⟨1, _⟩ => exact rhs_dot_1 _ _)
  rw [el, er]
  refine congrArg (x (ix2 (j 0) k) * ·) ?_
  exact transpose_apply [1, 0] _ transposes_S128x128_p1_0_S128x128 (ix2 k (j 1)) (ix2 (j 1) k) (fun b => match b with
    | ⟨0, _⟩ => rfl
    | ⟨1, _⟩ => rfl)

/-- The body's stored value, entry by entry: the sum of the two products. -/
theorem payload (x0 x3 : Vec Ideal S2000x128 .f32) (x6 x8 : Vec Ideal S128x128 .f32) :
    k2_pay1 (F := Ideal) x0 x3 x6 x8 = fun j => (∑ k : Fin 128, x0 (ix2 (j 0) k) * x6 (ix2 (j 1) k)) + (∑ k : Fin 128, x3 (ix2 (j 0) k) * x8 (ix2 (j 1) k)) := by
  funext j
  unfold k2_pay1
  simp only [shapeCast_self]
  exact congrArg₂ (· + ·) (product x0 x6 j) (product x3 x8 j)

/-- Over the grid: the features', the aggregate's and the output's windows sit on block (t, 0), the weights' on block
    (0, 0), and t runs over the 25 row blocks. -/
theorem index_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) ≤ 24
    ∧ win2_4.index t (1 : Fin 2) = 0 :=
  (by decide +kernel : ∀ t : Fin grid2.N, _)

/-- Every row block is some point's. -/
theorem index_onto : ∀ q : Fin 25, ∃ t : Fin cfg2.N, win2_4.index t = ![q.val, 0] :=
  (by decide +kernel : ∀ q : Fin 25, ∃ t : Fin grid2.N, win2_4.index t = ![q.val, 0])

/-- What point t writes back is block t of the layer's function of the four arrays. -/
theorem flushed_eq (c : Dev nD) (t : Fin cfg2.N) :
    (dat2 (F := Ideal) V c).flushed 4 t
      = ((cfg2.win 4).blk t).view.read (Elt Ideal) (Cert.Spec.sage (feats V c) (aggs V c) (wSelf V c) (wNeigh V c)) := by
  show (cfg2.win 4).cut (grid2.coords t) ((dat2 V c).after 4 t) = _
  rw [after2_4]
  unfold out2_4
  rw [View.canon_unit_zero zero_offsets]
  simp only [View.ld_unit_zero (S := S2000x128) zero_offsets, View.ld_unit_zero (S := S128x128) zero_offsets]
  rw [payload]
  obtain ⟨e00, e01, e10, e11, e20, e21, e30, e31, e40, e41⟩ := index_facts t
  funext j
  show (∑ k : Fin 128, feats V c (((cfg2.win 0).blk t).view.emb (ix2 (j 0) k)) * wSelf V c (((cfg2.win 2).blk t).view.emb (ix2 (j 1) k)))
      + (∑ k : Fin 128, aggs V c (((cfg2.win 1).blk t).view.emb (ix2 (j 0) k)) * wNeigh V c (((cfg2.win 3).blk t).view.emb (ix2 (j 1) k)))
    = (∑ k : Fin 128, feats V c (ix2 ((((cfg2.win 4).blk t).view.emb j) 0) k) * wSelf V c (ix2 ((((cfg2.win 4).blk t).view.emb j) 1) k))
      + (∑ k : Fin 128, aggs V c (ix2 ((((cfg2.win 4).blk t).view.emb j) 0) k) * wNeigh V c (ix2 ((((cfg2.win 4).blk t).view.emb j) 1) k))
  have h0 : ∀ k : Fin 128, ((cfg2.win 0).blk t).view.emb (ix2 (j 0) k) = ix2 ((((cfg2.win 4).blk t).view.emb j) 0) k := fun k => by
    funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * k.val = k.val; omega
  have h1 : ∀ k : Fin 128, ((cfg2.win 1).blk t).view.emb (ix2 (j 0) k) = ix2 ((((cfg2.win 4).blk t).view.emb j) 0) k := fun k => by
    funext a; apply Fin.ext
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 128 + 1 * k.val = k.val; omega
  have h2 : ∀ k : Fin 128, ((cfg2.win 2).blk t).view.emb (ix2 (j 1) k) = ix2 ((((cfg2.win 4).blk t).view.emb j) 1) k := fun k => by
    funext a; apply Fin.ext
    match a with
    | ⟨0, _⟩ => show win2_2.index t (0 : Fin 2) * 128 + 1 * (j 1).val = win2_4.index t (1 : Fin 2) * 128 + 1 * (j 1).val; omega
    | ⟨1, _⟩ => show win2_2.index t (1 : Fin 2) * 128 + 1 * k.val = k.val; omega
  have h3 : ∀ k : Fin 128, ((cfg2.win 3).blk t).view.emb (ix2 (j 1) k) = ix2 ((((cfg2.win 4).blk t).view.emb j) 1) k := fun k => by
    funext a; apply Fin.ext
    match a with
    | ⟨0, _⟩ => show win2_3.index t (0 : Fin 2) * 128 + 1 * (j 1).val = win2_4.index t (1 : Fin 2) * 128 + 1 * (j 1).val; omega
    | ⟨1, _⟩ => show win2_3.index t (1 : Fin 2) * 128 + 1 * k.val = k.val; omega
  exact congrArg₂ (· + ·)
    (Finset.sum_congr rfl fun k _ => congrArg₂ (· * ·) (congrArg (feats V c) (h0 k)) (congrArg (wSelf V c) (h2 k)))
    (Finset.sum_congr rfl fun k _ => congrArg₂ (· * ·) (congrArg (aggs V c) (h1 k)) (congrArg (wNeigh V c) (h3 k)))

/-- An index is in point t's block iff each coordinate is in the block's range. -/
theorem mem_block (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v58).slice (win2_4.rect t)).set ↔ _
  rw [View.set_slice_whole, Rect.mem_set_unit]
  exact Iff.rfl

/-- The row blocks cover the array: row r is in block r / 2000. -/
theorem covered (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := index_onto ⟨(i 0).val / 2000, by omega⟩
  have q0 : win2_4.index t (0 : Fin 2) = (i 0).val / 2000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

/-- The output array after the region. -/
theorem array_eq (c : Dev nD) :
    (dat2 (F := Ideal) V c).arrAt 4 cfg2.N = Cert.Spec.sage (feats V c) (aggs V c) (wSelf V c) (wNeigh V c) :=
  (dat2 V c).arrAt_eq_of_cover 4 _ (fun t _ => flushed_eq V c t) covered

end Cert.KernelIdeal.Layer2

end
-- ==== Proof.Region3.lean ====
/-
  The fourth launch (the classifier kernel) as ONE function of the arrays it finds: whatever the buffers hold when the
  region is entered, its output array ends at the product of the feature array with the transposed class weights,
  entry (r, c) being the sum over k of feats(r, k) · wCls(c, k).
  Grid point t stages rows [2000·t, 2000·t + 2000) of the features (block (t, 0) of size [2000, 128]), the whole
  [64, 128] weight array (block (0, 0) at every point) and rows [2000·t, 2000·t + 2000) of the output (block (t, 0)
  of size [2000, 64]); the body stores the block product over the whole output block, and the 25 blocks tile the
  50000 rows.
-/
import proofs.«145186_j30434138259919_1_alg».proof.Proof.Gen.KernelIdeal.Frame
import proofs.«145186_j30434138259919_1_alg».proof.Proof.Spec
import Idealize.ShloMosaic.Lib.Pipeline.Value
import Idealize.ShloMosaic.Lib.ValueIdx
import Idealize.ShloMosaic.PureOps.Ideal.Laws

noncomputable section

namespace Cert.KernelIdeal.Classify

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The arrays the region reads, as it finds them, at their literal types. -/
abbrev feats (c : Dev nD) : (⟨2, ![50000, 128]⟩ : Shape).Idx → EReal := V c main_v58
abbrev wCls (c : Dev nD) : (⟨2, ![64, 128]⟩ : Shape).Idx → EReal := V c main_arg8

theorem zero_offsets : (![0, 0] : Fin 2 → Nat) = fun _ => 0 := funext fun a => by fin_cases a <;> rfl

/-- The block product's operand indices, axis by axis: at output index j and contraction index q the left operand is
    read at (j 0, q) and the right operand at (q, j 1). -/
theorem lhs_cls_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_cls_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_cls_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_cls_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's stored value, entry by entry: the loaded feature block times the transposed weight block, a sum over the
    128 contracted positions (the format changes are the identity on the extended reals, the accumulator is zero). -/
theorem payload (x0 : Vec Ideal S2000x128 .f32) (x3 : Vec Ideal S64x128 .f32) :
    k3_pay1 (F := Ideal) x0 x3 = fun j => ∑ k : Fin 128, x0 (ix2 (j 0) k) * x3 (ix2 (j 1) k) := by
  funext j
  unfold k3_pay1
  simp only [shapeCast_self, matmul]
  refine (Ideal.matmul_constant_zero_apply dot_S2000x128_S128x64_S2000x64_1_0_0_1_n_n none _ _ j).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = ix2 (j 0) k := funext fun a => Fin.ext (by
    match a with
    | ⟨0, _⟩ => exact lhs_cls_0 _ _
    | ⟨1, _⟩ => exact (lhs_cls_1 _ _).trans hk)
  have er : dot_S2000x128_S128x64_S2000x64_1_0_0_1_n_n.rhsIdx j ((ValueIdx.contrEquiv1 dot_S2000x128_S128x64_S2000x64_1_0_0_1_n_n 128 rfl rfl).symm k) = ix2 k (j 1) := funext fun a => Fin.ext (by
    match a with
    | ⟨0, _⟩ => exact (rhs_cls_0 _ _).trans hk
    | ⟨1, _⟩ => exact rhs_cls_1 _ _)
  rw [el, er]
  have et : transpose S128x64 [1, 0] (truncf .bf16 x3 bitsLt_bf16_f32 : FVec Ideal S64x128 .bf16) transposes_S64x128_p1_0_S128x64 (ix2 k (j 1))
      = (truncf .bf16 x3 bitsLt_bf16_f32 : FVec Ideal S64x128 .bf16) (ix2 (j 1) k) :=
    transpose_apply [1, 0] _ transposes_S64x128_p1_0_S128x64 (ix2 k (j 1)) (ix2 (j 1) k) (fun b => match b with
      | ⟨0, _⟩ => rfl
      | ⟨1, _⟩ => rfl)
  exact congrArg (fun z => x0 (ix2 (j 0) k) * z) et

/-- Over the grid: the feature and output windows sit on block (t, 0), the weight window on block (0, 0), and t runs
    over the 25 row blocks. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 24
    ∧ win3_2.index t (1 : Fin 2) = 0 :=
  (by decide +kernel : ∀ t : Fin grid3.N, _)

/-- Every row block is some point's. -/
theorem index_onto : ∀ q : Fin 25, ∃ t : Fin cfg3.N, win3_2.index t = ![q.val, 0] :=
  (by decide +kernel : ∀ q : Fin 25, ∃ t : Fin grid3.N, win3_2.index t = ![q.val, 0])

/-- What point t writes back is block t of the product of the feature array with the transposed class weights. -/
theorem flushed_eq (c : Dev nD) (t : Fin cfg3.N) :
    (dat3 (F := Ideal) V c).flushed 2 t
      = ((cfg3.win 2).blk t).view.read (Elt Ideal) (Cert.Spec.cls (feats V c) (wCls V c)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S64x128) zero_offsets]
  rw [payload]
  obtain ⟨e0, e1, e2, e3, e4, e5⟩ := index_facts t
  funext j
  show ∑ k : Fin 128, feats V c (((cfg3.win 0).blk t).view.emb (ix2 (j 0) k)) * wCls V c (((cfg3.win 1).blk t).view.emb (ix2 (j 1) k))
    = ∑ k : Fin 128, feats V c (ix2 ((((cfg3.win 2).blk t).view.emb j) 0) k) * wCls V c (ix2 ((((cfg3.win 2).blk t).view.emb j) 1) k)
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * k.val = k.val; omega
  have h1 : ((cfg3.win 1).blk t).view.emb (ix2 (j 1) k) = ix2 ((((cfg3.win 2).blk t).view.emb j) 1) k := by
    funext a; apply Fin.ext
    match a with
    | ⟨0, _⟩ => show win3_1.index t (0 : Fin 2) * 64 + 1 * (j 1).val = win3_2.index t (1 : Fin 2) * 64 + 1 * (j 1).val; omega
    | ⟨1, _⟩ => show win3_1.index t (1 : Fin 2) * 128 + 1 * k.val = k.val; omega
  rw [h0, h1]
  rfl

/-- An index is in point t's block iff each coordinate is in the block's range. -/
theorem mem_block (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v59).slice (win3_2.rect t)).set ↔ _
  rw [View.set_slice_whole, Rect.mem_set_unit]
  exact Iff.rfl

/-- The row blocks cover the array: row r is in block r / 2000. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The output array after the region. -/
theorem array_eq (c : Dev nD) :
    (dat3 (F := Ideal) V c).arrAt 2 cfg3.N = Cert.Spec.cls (feats V c) (wCls V c) := by
  exact (dat3 V c).arrAt_eq_of_cover 2 _ (fun t _ => flushed_eq V c t) covered

end Cert.KernelIdeal.Classify

end
-- ==== Proof.KernelValue.lean ====
/-
  The kernel program's result, read back through its seven segments, is the reference's last stage of the same
  arguments. Going forward from the launch memory: the host operations before the first launch gather the two
  embedding tables exactly as the reference does; the first launch leaves the rectified sum, which is the reference's
  embedding stage; the host operations between the launches gather rows by source and scatter-add them by target as
  the reference does, and multiply by the reciprocal of the clamped degree where the reference divides by the clamped
  degree, which is the same quotient because a degree clamped from below by one is not zero; each combine launch
  leaves the two matrix products with transposed weights, added, which is the reference's layer stage; the last launch
  leaves the classifier product.
-/
import proofs.«145186_j30434138259919_1_alg».proof.Proof.Gen.KernelIdeal.Frame
import proofs.«145186_j30434138259919_1_alg».proof.Proof.Gen.ReferenceIdeal.Read
import proofs.«145186_j30434138259919_1_alg».proof.Proof.RefValue
import proofs.«145186_j30434138259919_1_alg».proof.Proof.Region0
import proofs.«145186_j30434138259919_1_alg».proof.Proof.Region1
import proofs.«145186_j30434138259919_1_alg».proof.Proof.Region2
import proofs.«145186_j30434138259919_1_alg».proof.Proof.Region3
import Idealize.ShloMosaic.Lib.StableHlo.Run
import Idealize.ShloMosaic.Lib.Pipeline.Value
import Idealize.ShloMosaic.Lib.ValueIdx

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The reciprocal of the clamped degree, broadcast along the rows -/

/-- One over the degree clamped from below by one, as the host operations spell it. -/
def invDeg (deg : FVec Ideal S50000 .f32) : FVec Ideal S50000 .f32 :=
  Host.divf (F := Ideal) (φ := .f32) (broadcastInDim (α := Ideal .f32) S50000 ![] bcast_S_S50000 (constant (F := Ideal) S_ .f32 0x3F800000#32))
    (maximumf (F := Ideal) (φ := .f32) deg (broadcastInDim (α := Ideal .f32) S50000 ![] bcast_S_S50000 (constant (F := Ideal) S_ .f32 0x3F800000#32)))

/-- A per-row value broadcast to a column and then along the 128 features reads, at entry (r, f), the value of row r. -/
theorem row_broadcast (y : FVec Ideal S50000 .f32) (i : S50000x128.Idx) :
    broadcastInDim (α := Ideal .f32) S50000x128 ![0, 1] bcast_S50000x1_S50000x128_0_1 (broadcastInDim (α := Ideal .f32) S50000x1 ![0] bcast_S50000_S50000x1_0 y) i
      = y (ix1 (i 0)) := by
  have e1 := broadcastInDim_apply ![0, 1] bcast_S50000x1_S50000x128_0_1 (broadcastInDim (α := Ideal .f32) S50000x1 ![0] bcast_S50000_S50000x1_0 y) i
    (ix2 (i 0) (⟨0, Nat.one_pos⟩ : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  have e2 := broadcastInDim_apply ![0] bcast_S50000_S50000x1_0 y (ix2 (i 0) (⟨0, Nat.one_pos⟩ : Fin 1)) (ix1 (i 0)) (fun a => match a with
      | ⟨0, _⟩ => by show (i 0).val = if (50000 : Nat) = 1 then 0 else (i 0).val; rw [if_neg (by decide)])
  exact e1.trans e2

/-- The splat of the word for one reads one at every row. -/
theorem ones_apply (r : S50000.Idx) :
    broadcastInDim (α := Ideal .f32) S50000 ![] bcast_S_S50000 (constant (F := Ideal) S_ .f32 0x3F800000#32) r = 1 :=
  (broadcastInDim_apply ![] bcast_S_S50000 (constant (F := Ideal) S_ .f32 0x3F800000#32) r ix0 (fun a => a.elim0)).trans
    Cert.Spec.ofBits_one

/-- The clamped degree's reciprocal at a row. -/
theorem invDeg_apply (deg : FVec Ideal S50000 .f32) (r : S50000.Idx) :
    invDeg deg r = Ideal.div 1 (max (deg r) 1) := by
  show Ideal.div (broadcastInDim (α := Ideal .f32) S50000 ![] bcast_S_S50000 (constant (F := Ideal) S_ .f32 0x3F800000#32) r)
      (max (deg r) (broadcastInDim (α := Ideal .f32) S50000 ![] bcast_S_S50000 (constant (F := Ideal) S_ .f32 0x3F800000#32) r)) = _
  rw [ones_apply r]

/-- Multiplying a segment sum by the broadcast reciprocal is the quotient by the clamped degree. -/
theorem scaled_eq_mean (S : FVec Ideal S50000x128 .f32) (deg : FVec Ideal S50000 .f32) :
    mulf (F := Ideal) (φ := .f32) S (broadcastInDim (α := Ideal .f32) S50000x128 ![0, 1] bcast_S50000x1_S50000x128_0_1 (broadcastInDim (α := Ideal .f32) S50000x1 ![0] bcast_S50000_S50000x1_0 (invDeg deg)))
      = Cert.Spec.mean S deg := by
  funext i
  show S i * broadcastInDim (α := Ideal .f32) S50000x128 ![0, 1] bcast_S50000x1_S50000x128_0_1 (broadcastInDim (α := Ideal .f32) S50000x1 ![0] bcast_S50000_S50000x1_0 (invDeg deg)) i
    = Ideal.div (S i) (max (deg (ix1 (i 0))) 1)
  rw [row_broadcast, invDeg_apply]
  exact Cert.Spec.mul_recip _ _ (Cert.Spec.max_one_ne_zero _)

/-! ## Before the first launch: the two gathered tables -/

set_option maxHeartbeats 1600000 in
theorem keys_eq (c : Dev nD) : W1 m ρ c (Proc.devRef .tc main_v8)
    = Cert.ReferenceIdeal.Read.val_main_v8 (F := Ideal) (m ((c : Thread nD τ).loc main_arg0)) (m ((c : Thread nD τ).loc main_arg2)) := by
  show StableHlo.after hostOps0 (W0 m ρ c) (Proc.devRef .tc main_v8) = _
  after_results_simp <;> rfl

set_option maxHeartbeats 1600000 in
theorem vals_eq (c : Dev nD) : W1 m ρ c (Proc.devRef .tc main_v17)
    = Cert.ReferenceIdeal.Read.val_main_v17 (F := Ideal) (m ((c : Thread nD τ).loc main_arg0)) (m ((c : Thread nD τ).loc main_arg3)) := by
  show StableHlo.after hostOps0 (W0 m ρ c) (Proc.devRef .tc main_v17) = _
  after_results_simp <;> rfl

/-- An argument array the first stretch does not write is as launched. -/
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

/-! ## The first launch: the embedding stage -/

theorem embedded_eq (c : Dev nD) : W2 m ρ c (Proc.devRef .tc main_v18)
    = Cert.ReferenceIdeal.Read.val_main_v19 (F := Ideal) (m ((c : Thread nD τ).loc main_arg0)) (m ((c : Thread nD τ).loc main_arg2)) (m ((c : Thread nD τ).loc main_arg3)) := by
  refine (W2_arr m ρ c 2).trans ((Cert.KernelIdeal.Embed.array_eq (V1 m ρ) c).trans ?_)
  rw [Cert.ReferenceIdeal.Stages.embed_stage]
  exact congrArg₂ Cert.Spec.embed (keys_eq m ρ c) (vals_eq m ρ c)

/-! ## The argument arrays further along: no launch and no host operation writes one -/

theorem W2_arg1 (c : Dev nD) : W2 m ρ c (Proc.devRef .tc main_arg1) = m ((c : Thread nD τ).loc main_arg1) :=
  (W2_of_ne m ρ c main_arg1 (by decide)).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c
theorem W3_arg8 (c : Dev nD) : W3 m ρ c (Proc.devRef .tc main_arg8) = m ((c : Thread nD τ).loc main_arg8) := by
  show StableHlo.after hostOps1 (W2 m ρ c) (Proc.devRef .tc main_arg8) = _
  after_results_simp
  exact W2_arg8 m ρ c
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) := by
  show StableHlo.after hostOps2 (W4 m ρ c) (Proc.devRef .tc main_arg8) = _
  after_results_simp
  exact W4_arg8 m ρ c
theorem W6_arg8 (c : Dev nD) : W6 m ρ c (Proc.devRef .tc main_arg8) = m ((c : Thread nD τ).loc main_arg8) :=
  (W6_of_ne m ρ c main_arg8 (by decide)).trans (W5_arg8 m ρ c)

/-! ## Between the first and the second launch: the first aggregate -/

set_option maxHeartbeats 1600000 in
/-- The segment sum of the gathered embedding rows times the reciprocal of the clamped degree is the reference's
    quotient stage. -/
theorem aggregate1_eq (c : Dev nD) : W3 m ρ c (Proc.devRef .tc main_v43)
    = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v43) = _
  after_results_simp
  rw [embedded_eq m ρ c, W2_arg1 m ρ c, Cert.ReferenceIdeal.Stages.mean_stage1]
  refine (scaled_eq_mean _ _).trans ?_
  exact congrArg₂ Cert.Spec.mean rfl rfl

/-! ## The second launch: the first layer -/

set_option maxHeartbeats 1600000 in
theorem layer1_eq (c : Dev nD) : W4 m ρ c (Proc.devRef .tc main_v44)
    = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 4).trans ((Cert.KernelIdeal.Layer1.array_eq (V3 m ρ) c).trans ?_)
  have e0 : Cert.KernelIdeal.Layer1.feats (V3 m ρ) c = Cert.ReferenceIdeal.Read.val_main_v19 (F := Ideal) (m ((c : Thread nD τ).loc main_arg0)) (m ((c : Thread nD τ).loc main_arg2)) (m ((c : Thread nD τ).loc main_arg3)) := by
    show StableHlo.after hostOps1 (W2 m ρ c) (Proc.devRef .tc main_v18) = _
    after_results_simp
    exact embedded_eq m ρ c
  have e1 : Cert.KernelIdeal.Layer1.aggs (V3 m ρ) c = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) := aggregate1_eq m ρ c
  have e2 : Cert.KernelIdeal.Layer1.wSelf (V3 m ρ) c = (m ((c : Thread nD τ).loc main_arg4)) := by
    show StableHlo.after hostOps1 (W2 m ρ c) (Proc.devRef .tc main_arg4) = _
    after_results_simp
    exact W2_arg4 m ρ c
  have e3 : Cert.KernelIdeal.Layer1.wNeigh (V3 m ρ) c = (m ((c : Thread nD τ).loc main_arg5)) := by
    show StableHlo.after hostOps1 (W2 m ρ c) (Proc.devRef .tc main_arg5) = _
    after_results_simp
    exact W2_arg5 m ρ c
  rw [e0, e1, e2, e3, Cert.ReferenceIdeal.Stages.layer_stage1]

/-! ## Between the second and the third launch: the second aggregate -/

set_option maxHeartbeats 1600000 in
/-- The source rows, the target rows and the reciprocal degrees were computed before the second launch, which writes
    none of them. -/
theorem sources_eq (c : Dev nD) : W4 m ρ c (Proc.devRef .tc main_v20) = Cert.ReferenceIdeal.Read.val_main_v21 (F := Ideal) (m ((c : Thread nD τ).loc main_arg1)) := by
  refine (W4_of_ne m ρ c main_v20 (by decide)).trans ?_
  show StableHlo.after hostOps1 (W2 m ρ c) (Proc.devRef .tc main_v20) = _
  after_results_simp
  rw [W2_arg1 m ρ c]
  rfl
set_option maxHeartbeats 1600000 in
theorem targets_eq (c : Dev nD) : W4 m ρ c (Proc.devRef .tc main_v22) = Cert.ReferenceIdeal.Read.val_main_v23 (F := Ideal) (m ((c : Thread nD τ).loc main_arg1)) := by
  refine (W4_of_ne m ρ c main_v22 (by decide)).trans ?_
  show StableHlo.after hostOps1 (W2 m ρ c) (Proc.devRef .tc main_v22) = _
  after_results_simp
  rw [W2_arg1 m ρ c]
  rfl
set_option maxHeartbeats 1600000 in
theorem reciprocals_eq (c : Dev nD) : W4 m ρ c (Proc.devRef .tc main_v30) = invDeg (Cert.ReferenceIdeal.Read.val_main_v27 (F := Ideal) (m ((c : Thread nD τ).loc main_arg1))) := by
  refine (W4_of_ne m ρ c main_v30 (by decide)).trans ?_
  show StableHlo.after hostOps1 (W2 m ρ c) (Proc.devRef .tc main_v30) = _
  after_results_simp
  rw [W2_arg1 m ρ c]
  rfl

set_option maxHeartbeats 1600000 in
theorem aggregate2_eq (c : Dev nD) : W5 m ρ c (Proc.devRef .tc main_v57)
    = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v57) = _
  after_results_simp
  rw [layer1_eq m ρ c, sources_eq m ρ c, targets_eq m ρ c, reciprocals_eq m ρ c, Cert.ReferenceIdeal.Stages.mean_stage2, Cert.ReferenceIdeal.Stages.deg_stage2]
  refine (scaled_eq_mean _ _).trans ?_
  exact congrArg₂ Cert.Spec.mean rfl rfl

/-! ## The third launch: the second layer -/

set_option maxHeartbeats 1600000 in
theorem layer2_eq (c : Dev nD) : W6 m ρ c (Proc.devRef .tc main_v58)
    = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 4).trans ((Cert.KernelIdeal.Layer2.array_eq (V5 m ρ) c).trans ?_)
  have e0 : Cert.KernelIdeal.Layer2.feats (V5 m ρ) c = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    show StableHlo.after hostOps2 (W4 m ρ c) (Proc.devRef .tc main_v44) = _
    after_results_simp
    exact layer1_eq m ρ c
  have e1 : Cert.KernelIdeal.Layer2.aggs (V5 m ρ) c = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := aggregate2_eq m ρ c
  have e2 : Cert.KernelIdeal.Layer2.wSelf (V5 m ρ) c = (m ((c : Thread nD τ).loc main_arg6)) := by
    show StableHlo.after hostOps2 (W4 m ρ c) (Proc.devRef .tc main_arg6) = _
    after_results_simp
    exact W4_arg6 m ρ c
  have e3 : Cert.KernelIdeal.Layer2.wNeigh (V5 m ρ) c = (m ((c : Thread nD τ).loc main_arg7)) := by
    show StableHlo.after hostOps2 (W4 m ρ c) (Proc.devRef .tc main_arg7) = _
    after_results_simp
    exact W4_arg7 m ρ c
  rw [e0, e1, e2, e3, Cert.ReferenceIdeal.Stages.layer_stage2]

/-! ## The fourth launch: the classifier -/

/-- The result buffer at the last boundary is the reference's last stage of the same nine arguments. -/
theorem result_eq (c : Dev nD) : W7 m ρ c (Proc.devRef .tc main_v59)
    = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 2).trans ((Cert.KernelIdeal.Classify.array_eq (V6 m ρ) c).trans ?_)
  have e0 : Cert.KernelIdeal.Classify.feats (V6 m ρ) c = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := layer2_eq m ρ c
  have e1 : Cert.KernelIdeal.Classify.wCls (V6 m ρ) c = (m ((c : Thread nD τ).loc main_arg8)) := W6_arg8 m ρ c
  rw [e0, e1, Cert.ReferenceIdeal.Stages.cls_stage]

end Cert.KernelIdeal.Chain

end
-- ==== Proof.lean ====
/-
  A two-layer mean-aggregating graph network with an embedding sum in front and a linear classifier behind, as four
  tiled launches among host gathers and scatter-adds, against the same network written with whole-array operations.

  Both programs gather two embedding tables by the node features and rectify their sum; twice, they gather the node
  rows by edge source, add them up by edge target, take the mean by the target's degree clamped from below by one,
  and add the features times the transposed self weights to the mean times the transposed neighbour weights; last,
  they multiply by the transposed class weights. On the extended reals the two differ in one place only: the tiled
  program multiplies the segment sum by 1 / max(deg, 1) where the other divides it by max(deg, 1). Off zero the
  quotient x / d is x · d⁻¹, so x · (1 / d) = x · (1 · d⁻¹) = x / d for every d other than 0, infinite d included, and
  a degree clamped from below by one is not zero; no finiteness of the inputs is used. Matrix products are plain
  sums of products at this instance (a product into a zero accumulator, a change of float format and a tiling of the
  rows change nothing), so each launch's output array is the whole-array function of the arrays it reads.

  The frames of the two tiled programs are the generated ones; the reference's frame is its generated run with the
  result dropped; no operation was rewritten by the idealization, so there is nothing to preserve.
-/
import proofs.«145186_j30434138259919_1_alg».proof.Defs
import proofs.«145186_j30434138259919_1_alg».proof.Proof.Gen.Kernel
import proofs.«145186_j30434138259919_1_alg».proof.Proof.Gen.Kernel.Skeleton
import proofs.«145186_j30434138259919_1_alg».proof.Proof.Gen.Kernel.Launch
import proofs.«145186_j30434138259919_1_alg».proof.Proof.Gen.Kernel.Points
import proofs.«145186_j30434138259919_1_alg».proof.Proof.Gen.Kernel.Frame
import proofs.«145186_j30434138259919_1_alg».proof.Proof.Gen.KernelIdeal
import proofs.«145186_j30434138259919_1_alg».proof.Proof.Gen.KernelIdeal.Skeleton
import proofs.«145186_j30434138259919_1_alg».proof.Proof.Gen.KernelIdeal.Launch
import proofs.«145186_j30434138259919_1_alg».proof.Proof.Gen.KernelIdeal.Points
import proofs.«145186_j30434138259919_1_alg».proof.Proof.Gen.KernelIdeal.Frame
import proofs.«145186_j30434138259919_1_alg».proof.Proof.Gen.ReferenceIdeal
import proofs.«145186_j30434138259919_1_alg».proof.Proof.Gen.ReferenceIdeal.Run
import proofs.«145186_j30434138259919_1_alg».proof.Proof.Gen.ReferenceIdeal.Read
import proofs.«145186_j30434138259919_1_alg».proof.Proof.Gen.Pre_finite_inputs
import proofs.«145186_j30434138259919_1_alg».proof.Proof.KernelRun
import proofs.«145186_j30434138259919_1_alg».proof.Proof.KernelValue
import Idealize.ShloMosaic.Adequacy
import Idealize.ShloMosaic.Init

noncomputable section

namespace Cert.Proof

open Idealize.ShloMosaic Idealize.SL.Sem

/-- Both programs end with the same result array: the reference's last stage of the shared arguments. The tiled
    program's run names its result buffer at the last boundary's contents, which the chain through its seven segments
    reads back to that stage; the reference's run states its result as the same stage of its own arguments, which
    agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v73_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
